-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S32x32 .f32) (main_arg4 : FVec F S32 .f32) (main_arg5 : FVec F S32x16 .f32) (main_arg6 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩
abbrev S5000x32 : Shape := ⟨2, ![5000, 32]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 71
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S_, .f32⟩
  | .hbm, ⟨42, _⟩ => ⟨S100000x32, .f32⟩
  | .hbm, ⟨43, _⟩ => ⟨S1600000x1, .i32⟩
  | .hbm, ⟨44, _⟩ => ⟨S100000x32, .f32⟩
  | .hbm, ⟨45, _⟩ => ⟨S100000x1, .f32⟩
  | .hbm, ⟨46, _⟩ => ⟨S100000x32, .f32⟩
  | .hbm, ⟨47, _⟩ => ⟨S100000x32, .f32⟩
  | .hbm, ⟨48, _⟩ => ⟨S1x32, .f32⟩
  | .hbm, ⟨49, _⟩ => ⟨S100000x32, .f32⟩
  | .hbm, ⟨50, _⟩ => ⟨S100000x1, .f32⟩
  | .hbm, ⟨51, _⟩ => ⟨S100000x32, .f32⟩
  | .hbm, ⟨52, _⟩ => ⟨S100000x32, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x32, .f32⟩
  | .hbm, ⟨62, _⟩ => ⟨S_, .f32⟩
  | .hbm, ⟨63, _⟩ => ⟨S100000x32, .f32⟩
  | .hbm, ⟨64, _⟩ => ⟨S1600000x1, .i32⟩
  | .hbm, ⟨65, _⟩ => ⟨S100000x32, .f32⟩
  | .hbm, ⟨66, _⟩ => ⟨S100000x1, .f32⟩
  | .hbm, ⟨67, _⟩ => ⟨S100000x32, .f32⟩
  | .hbm, ⟨68, _⟩ => ⟨S100000x32, .f32⟩
  | .hbm, ⟨69, _⟩ => ⟨S1x16, .f32⟩
  | .hbm, ⟨70, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S32x16, .f32⟩
  | .local _ .vmem, ⟨9, _⟩ => ⟨S1x16, .f32⟩
  | .local _ .vmem, ⟨10, _⟩ => ⟨S5000x16, .f32⟩
  | .local _ .vmem, ⟨11, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_v30) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x32 : Shape := ⟨2, ![1, 32]⟩
abbrev S100000x16 : Shape := ⟨2, ![100000, 16]⟩
abbrev S1x16 : Shape := ⟨2, ![1, 16]⟩

abbrev nBuf : Space → Nat
  | .hbm => 81
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x32, .f32⟩
  | .hbm, ⟨41, _⟩ => ⟨S_, .f32⟩
  | .hbm, ⟨42, _⟩ => ⟨S100000x32, .f32⟩
  | .hbm, ⟨43, _⟩ => ⟨S1600000x1, .i32⟩
  | .hbm, ⟨44, _⟩ => ⟨S100000x32, .f32⟩
  | .hbm, ⟨45, _⟩ => ⟨S100000x1, .f32⟩
  | .hbm, ⟨46, _⟩ => ⟨S100000x32, .f32⟩
  | .hbm, ⟨47, _⟩ => ⟨S100000x32, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S_, .f32⟩
  | .hbm, ⟨53, _⟩ => ⟨S100000x32, .f32⟩
  | .hbm, ⟨54, _⟩ => ⟨S100000x32, .f32⟩
  | .hbm, ⟨55, _⟩ => ⟨S100000x1, .f32⟩
  | .hbm, ⟨56, _⟩ => ⟨S100000x32, .f32⟩
  | .hbm, ⟨57, _⟩ => ⟨S100000x32, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x32, .f32⟩
  | .hbm, ⟨67, _⟩ => ⟨S_, .f32⟩
  | .hbm, ⟨68, _⟩ => ⟨S100000x32, .f32⟩
  | .hbm, ⟨69, _⟩ => ⟨S1600000x1, .i32⟩
  | .hbm, ⟨70, _⟩ => ⟨S100000x32, .f32⟩
  | .hbm, ⟨71, _⟩ => ⟨S100000x1, .f32⟩
  | .hbm, ⟨72, _⟩ => ⟨S100000x32, .f32⟩
  | .hbm, ⟨73, _⟩ => ⟨S100000x32, .f32⟩
  | .hbm, ⟨74, _⟩ => ⟨S100000x16, .f32⟩
  | .hbm, ⟨75, _⟩ => ⟨S1x16, .f32⟩
  | .hbm, ⟨76, _⟩ => ⟨S100000x16, .f32⟩
  | .hbm, ⟨77, _⟩ => ⟨S100000x16, .f32⟩
  | .hbm, ⟨78, _⟩ => ⟨S_, .f32⟩
  | .hbm, ⟨79, _⟩ => ⟨S100000x16, .f32⟩
  | .hbm, ⟨80, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Layer.lean ====
/-
  One dense layer followed by the positive part, on the extended reals, entry by entry:

      out (p, q) = max (∑ k, x (p, k) · w (k, q) + b q) 0 ,

  `k` running over the columns of `x` (the rows of `w`). Both programs compute every layer in this form. The kernel
  rounds `x` and `w` to bf16 on the way into the product, which changes nothing on the extended reals; it adds the
  bias as a `[1, N]` row stretched down the rows, where the reference stretches the `[N]` vector; and its product is an
  accumulation onto the zero block, which is the same sum because `0 + s = s` for every extended real `s`. No law
  beyond these is used, so no entry has to be finite.

  Stated here, at any extents: the entry and the whole array; the kernel body's expression read at `(p, q)`; the
  reference's expression as the whole array; and a `[N]` vector reshaped to a `[1, N]` row, read back.
-/
import Idealize.ShloMosaic.Lib.ValueIdx
import Idealize.ShloMosaic.Lib.Pipeline.Value
import Idealize.ShloMosaic.PureOps.Ideal.Laws
import proofs.«172774_j47244640256453_1_alg».proof.Proof.LibPlainDot

open scoped BigOperators

noncomputable section

namespace Cert.Layer

open Idealize.ShloMosaic Idealize.ShloMosaic.ValueIdx

variable {M K N : Nat}

/-- Entry `(p, q)` of the layer. -/
def entry (x : (⟨2, ![M, K]⟩ : Shape).Idx → EReal) (w : (⟨2, ![K, N]⟩ : Shape).Idx → EReal)
    (b : (⟨1, ![N]⟩ : Shape).Idx → EReal) (p : Fin M) (q : Fin N) : EReal :=
  max ((∑ k : Fin K, x (ix2 p k) * w (ix2 k q)) + b (ix1 q)) 0

/-- The layer's whole `[M, N]` array. -/
def dense (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => entry x w b (i 0) (i 1)

theorem dense_apply (x : (⟨2, ![M, K]⟩ : Shape).Idx → EReal) (w : (⟨2, ![K, N]⟩ : Shape).Idx → EReal)
    (b : (⟨1, ![N]⟩ : Shape).Idx → EReal) (p : Fin M) (q : Fin N) : dense x w b (ix2 p q) = entry x w b p q := rfl

/-- An entry depends on `x` only through row `p`: two arrays that agree on that row (at possibly different row
    numbers `p`, `r`) give the same entry. -/
theorem entry_congr_row {M' : Nat} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal) (p : Fin M) (r : Fin M') (q : Fin N)
    (h : ∀ k : Fin K, x (ix2 p k) = x' (ix2 r k)) : entry x w b p q = entry x' w b r q := by
  unfold entry
  rw [Finset.sum_congr rfl fun k _ => by rw [h k]]

/-- The one row of a `[1, N]` array, as a `[N]` vector. -/
def rowOf (b2 : (⟨2, ![1, N]⟩ : Shape).Idx → EReal) : (⟨1, ![N]⟩ : Shape).Idx → EReal := fun j => b2 (ix2 0 (j 0))

/-- A `[N]` vector reshaped to a `[1, N]` row and read back as a vector is the vector. -/
theorem rowOf_reshape (b : (⟨1, ![N]⟩ : Shape).Idx → EReal) (h : (⟨1, ![N]⟩ : Shape).ShapeCasts ⟨2, ![1, N]⟩) :
    rowOf (shapeCast ⟨2, ![1, N]⟩ b h) = b := by
  funext j
  unfold rowOf
  rw [shapeCast_addUnit_apply (n := 1) ![N] b h]
  refine congrArg b (funext fun a => ?_)
  match a with
  | ⟨0, _⟩ => rfl

/-- A position on an axis of extent `N` is `0` when `N = 1`: the form in which a stretched axis reads its operand. -/
private theorem val_eq_ite (q : Fin N) : (q : Nat) = if N = 1 then 0 else (q : Nat) := by
  split
  · have := q.isLt; omega
  · rfl

section Products

variable (d : DotDims ⟨2, ![M, K]⟩ ⟨2, ![K, N]⟩ ⟨2, ![M, N]⟩)
  (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- THE KERNEL BODY's expression at `(p, q)`: the bf16 product of the loaded blocks accumulated onto the zero block, plus
    the bias row stretched down the rows, then the larger of that and zero — the layer's entry over the blocks. -/
theorem body_apply (x0 : FVec Ideal ⟨2, ![M, K]⟩ .f32) (x1 : FVec Ideal ⟨2, ![K, N]⟩ .f32) (x2 : FVec Ideal ⟨2, ![1, N]⟩ .f32)
    (h1 : (⟨2, ![M, K]⟩ : Shape).ShapeCasts ⟨2, ![M, K]⟩) (h2 : FTy.bits .bf16 < FTy.bits .f32)
    (h4 : (⟨2, ![1, N]⟩ : Shape).ShapeCasts ⟨2, ![1, N]⟩) (h5 : (⟨2, ![1, N]⟩ : Shape).Broadcasts ⟨2, ![M, N]⟩)
    (p : Fin M) (q : Fin N) :
    (maximumf (addf (matmul d none (truncf .bf16 (shapeCast ⟨2, ![M, K]⟩ x0 h1) h2) (truncf .bf16 x1 h2)
          (constant ⟨2, ![M, N]⟩ .f32 0x00000000#32))
        (broadcastTo ⟨2, ![M, N]⟩ (shapeCast ⟨2, ![1, N]⟩ x2 h4) h5))
      (broadcast ⟨2, ![M, N]⟩ (Scalar.ofBits (F := Ideal) .f32 0x00000000#32)) : FVec Ideal ⟨2, ![M, N]⟩ .f32) (ix2 p q)
    = entry x0 x1 (rowOf x2) p q := by
  rw [maximumf_apply, addf_apply, broadcast_apply,
    PlainDot.matmul_zero_apply d hlb hrb hln hrn hlc hrc hr hs, shapeCast_self, shapeCast_self]
  rw [broadcastTo_apply x2 h5 (ix2 p q) (ix2 0 q) (fun a => by
    match a with
    | ⟨0, _⟩ => rfl
    | ⟨1, _⟩ => exact val_eq_ite q)]
  show max _ (Ideal.ofBits .f32 0x00000000#32) = _
  rw [Ideal.ofBits_zero_f32]
  rfl

/-- THE REFERENCE's expression as a whole array: the product, plus the bias vector laid as a row and stretched down the
    rows, then the larger of that and the zero array — the layer. -/
theorem ref_eq (X : FVec Ideal ⟨2, ![M, K]⟩ .f32) (W : FVec Ideal ⟨2, ![K, N]⟩ .f32) (b : FVec Ideal ⟨1, ![N]⟩ .f32)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (hb0 : (⟨0, ![]⟩ : Shape).BroadcastsInDim ⟨2, ![M, N]⟩ (![] : Fin 0 → Fin 2)) :
    (maximumf (addf (Host.dotGeneral d none X W)
        (broadcastInDim ⟨2, ![M, N]⟩ ![0, 1] hb2 (broadcastInDim ⟨2, ![1, N]⟩ ![1] hb1 b)))
      (broadcastInDim ⟨2, ![M, N]⟩ ![] hb0 (constant (F := Ideal) ⟨0, ![]⟩ .f32 0x00000000#32)) : FVec Ideal ⟨2, ![M, N]⟩ .f32)
    = dense X W b := by
  funext i
  obtain ⟨p, q, rfl⟩ : ∃ (p : Fin M) (q : Fin N), i = ix2 p q := ⟨i 0, i 1, eq_ix2 i⟩
  rw [dense_apply, maximumf_apply, addf_apply, PlainDot.dotGeneral_apply d hlb hrb hln hrn hlc hrc hr hs]
  rw [broadcastInDim_apply ![0, 1] hb2 _ (ix2 p q) (ix2 0 q) (fun a => by
        match a with
        | ⟨0, _⟩ => rfl
        | ⟨1, _⟩ => exact val_eq_ite q),
    broadcastInDim_apply ![1] hb1 b (ix2 0 q) (ix1 q) (fun a => by
        match a with
        | ⟨0, _⟩ => exact val_eq_ite q),
    broadcastInDim_apply ![] hb0 _ (ix2 p q) ix0 (fun a => a.elim0), constant_apply, Ideal.ofBits_zero_f32]
  rfl

end Products

end Cert.Layer

end
-- ==== Proof.Region0.lean ====
/-
  What kernel region 0 leaves in its output array, for ANY contents `V` of the buffers at the region's entry.

  The region runs the layer's body on 20 row blocks of 5000 rows: at point `t` it reads rows `5000·t … 5000·t + 4999` of the
  `[100000, 32]` operand, the whole `[32, 32]` weight and the whole `[1, 32]` bias row, and writes rows `5000·t …` of the `[100000, 32]`
  result. An entry of the layer depends on its operand only through the entry's own row, so what point `t` writes back
  is block `t` of ONE array, the layer of the whole operand; the 20 blocks cover every row (row `r` lies in block
  `r / 5000`), so that array is what the region leaves.
-/
import proofs.«172774_j47244640256453_1_alg».proof.Proof.Gen.KernelIdeal.Frame
import proofs.«172774_j47244640256453_1_alg».proof.Proof.Layer
import Idealize.ShloMosaic.Lib.Pipeline.Value
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's operand, weight and bias row as it finds them, at their literal types. -/
abbrev xs (c : Dev nD) : FVec Ideal S100000x32 .f32 := V c main_v30
abbrev ws (c : Dev nD) : FVec Ideal S32x32 .f32 := V c main_arg3
abbrev bs (c : Dev nD) : FVec Ideal S1x32 .f32 := V c main_v31

/-- What the region leaves in its output array: the layer of the whole operand. -/
abbrev result (c : Dev nD) : FVec Ideal S100000x32 .f32 := Layer.dense (xs V c) (ws V c) (Layer.rowOf (bs V c))

/-- The body's stored value at `(p, q)` is the layer's entry over the loaded blocks. -/
theorem pay_apply (x0 : Vec Ideal S5000x32 .f32) (x1 : Vec Ideal S32x32 .f32) (x2 : Vec Ideal S1x32 .f32) (p : Fin 5000) (q : Fin 32) :
    k0_pay1 x0 x1 x2 (ix2 p q) = Layer.entry x0 x1 (Layer.rowOf x2) p q := by
  unfold k0_pay1
  exact Layer.body_apply dot_S5000x32_S32x32_S5000x32_1_0_0_1_n_n rfl rfl rfl rfl rfl rfl rfl rfl x0 x1 x2 _ _ _ _ p q

/-- The printed index maps over the grid: the operand's and the result's blocks move down the rows with the point, the
    weight's and the bias row's stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The operand's block at point `t` is rows `5000·t …` of the operand. -/
theorem xblk_apply (c : Dev nD) (t : Fin cfg0.N) (p : Fin 5000) (k : Fin 32) (r : Fin 100000) (hr : r.val = 5000 * t.val + p.val) :
    (iblk0 V c 0 t : Vec Ideal S5000x32 .f32) (ix2 p k) = xs V c (ix2 r k) := by
  obtain ⟨e0, e1, -⟩ := idx_facts t
  unfold iblk0
  rw [View.read_apply]
  show V c main_v30 _ = V c main_v30 _
  refine congrArg (V c main_v30) (funext fun a => Fin.ext ?_)
  match a with
  | ⟨0, _⟩ => show win0_0.index t 0 * 5000 + 1 * p.val = r.val; rw [e0, hr]; omega
  | ⟨1, _⟩ => show win0_0.index t 1 * 32 + 1 * k.val = k.val; rw [e1]; omega

/-- The weight's block at every point is the whole weight. -/
theorem wblk_eq (c : Dev nD) (t : Fin cfg0.N) : (iblk0 V c 1 t : Vec Ideal S32x32 .f32) = ws V c := by
  obtain ⟨-, -, e0, e1, -⟩ := idx_facts t
  funext j
  unfold iblk0
  rw [View.read_apply]
  show V c main_arg3 _ = V c main_arg3 _
  refine congrArg (V c main_arg3) (funext fun a => Fin.ext ?_)
  match a with
  | ⟨0, _⟩ => show win0_1.index t 0 * 32 + 1 * (j 0).val = (j 0).val; rw [e0]; omega
  | ⟨1, _⟩ => show win0_1.index t 1 * 32 + 1 * (j 1).val = (j 1).val; rw [e1]; omega

/-- The bias row's block at every point is the whole row. -/
theorem bblk_eq (c : Dev nD) (t : Fin cfg0.N) : (iblk0 V c 2 t : Vec Ideal S1x32 .f32) = bs V c := by
  obtain ⟨-, -, -, -, e0, e1, -⟩ := idx_facts t
  funext j
  unfold iblk0
  rw [View.read_apply]
  show V c main_v31 _ = V c main_v31 _
  refine congrArg (V c main_v31) (funext fun a => Fin.ext ?_)
  match a with
  | ⟨0, _⟩ => show win0_2.index t 0 * 1 + 1 * (j 0).val = (j 0).val; rw [e0]; omega
  | ⟨1, _⟩ => show win0_2.index t 1 * 32 + 1 * (j 1).val = (j 1).val; rw [e1]; omega

/-- WHAT POINT `t` WRITES BACK is block `t` of the layer of the whole operand. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x32) hz, View.ld_unit_zero (S := S1x32) hz]
  rw [wblk_eq, bblk_eq]
  funext j
  obtain ⟨p, q, rfl⟩ : ∃ (p : Fin 5000) (q : Fin 32), j = ix2 p q := ⟨j 0, j 1, eq_ix2 j⟩
  obtain ⟨-, -, -, -, -, -, e0, e1⟩ := idx_facts t
  have hp := p.isLt
  have hq := q.isLt
  have ht : t.val < 20 := t.isLt
  rw [View.read_apply]
  have hemb : ((cfg0.win 3).blk t).view.emb (ix2 p q) = ix2 (⟨5000 * t.val + p.val, by omega⟩ : Fin 100000) q := by
    funext a
    apply Fin.ext
    match a with
    | ⟨0, _⟩ => show win0_3.index t 0 * 5000 + 1 * p.val = 5000 * t.val + p.val; rw [e0]; omega
    | ⟨1, _⟩ => show win0_3.index t 1 * 32 + 1 * q.val = q.val; rw [e1]; omega
  show k0_pay1 (iblk0 V c 0 t) (ws V c) (bs V c) (ix2 p q) = result V c (((cfg0.win 3).blk t).view.emb (ix2 p q))
  rw [hemb]
  refine (pay_apply (iblk0 V c 0 t) (ws V c) (bs V c) p q).trans ?_
  exact Layer.entry_congr_row _ _ _ _ p _ q fun k => xblk_apply V c t p k _ rfl

/-- An index of the result array is in point `t`'s block iff each coordinate is in the block's range on its axis. -/
theorem mem_blk (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v32).slice (win0_3.rect t)).set ↔ _
  rw [View.set_slice_whole, Rect.mem_set_unit]
  exact Iff.rfl

/-- Every index of the result array lies in the block of the point its row selects: row `r` in block `r / 5000`. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := rfl
  have hlt : (i 0).val / 5000 < cfg0.N := by rw [hN]; omega
  obtain ⟨-, -, -, -, -, -, e0, e1⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ 0 * 5000 ≤ (i 0).val ∧ (i 0).val < win0_3.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_3.index ⟨(i 0).val / 5000, hlt⟩ 1 * 32 ≤ (i 1).val ∧ (i 1).val < win0_3.index ⟨(i 0).val / 5000, hlt⟩ 1 * 32 + 32
    rw [e1]
    omega

/-- THE ARRAY THE REGION LEAVES: the layer of the operand, the weight and the bias row as the region found them. -/
theorem final (c : Dev nD) : (dat0 V c).arrAt 3 cfg0.N = result V c :=
  (dat0 V c).arrAt_eq_of_cover 3 (result V c) (fun t _ => flushed_eq V c t) cover

end Cert.KernelIdeal.Region0

end
-- ==== Proof.Region1.lean ====
/-
  What kernel region 1 leaves in its output array, for ANY contents `V` of the buffers at the region's entry.

  The region runs the layer's body on 20 row blocks of 5000 rows: at point `t` it reads rows `5000·t … 5000·t + 4999` of the
  `[100000, 32]` operand, the whole `[32, 16]` weight and the whole `[1, 16]` bias row, and writes rows `5000·t …` of the `[100000, 16]`
  result. An entry of the layer depends on its operand only through the entry's own row, so what point `t` writes back
  is block `t` of ONE array, the layer of the whole operand; the 20 blocks cover every row (row `r` lies in block
  `r / 5000`), so that array is what the region leaves.
-/
import proofs.«172774_j47244640256453_1_alg».proof.Proof.Gen.KernelIdeal.Frame
import proofs.«172774_j47244640256453_1_alg».proof.Proof.Layer
import Idealize.ShloMosaic.Lib.Pipeline.Value
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's operand, weight and bias row as it finds them, at their literal types. -/
abbrev xs (c : Dev nD) : FVec Ideal S100000x32 .f32 := V c main_v48
abbrev ws (c : Dev nD) : FVec Ideal S32x16 .f32 := V c main_arg5
abbrev bs (c : Dev nD) : FVec Ideal S1x16 .f32 := V c main_v49

/-- What the region leaves in its output array: the layer of the whole operand. -/
abbrev result (c : Dev nD) : FVec Ideal S100000x16 .f32 := Layer.dense (xs V c) (ws V c) (Layer.rowOf (bs V c))

/-- The body's stored value at `(p, q)` is the layer's entry over the loaded blocks. -/
theorem pay_apply (x0 : Vec Ideal S5000x32 .f32) (x1 : Vec Ideal S32x16 .f32) (x2 : Vec Ideal S1x16 .f32) (p : Fin 5000) (q : Fin 16) :
    k1_pay1 x0 x1 x2 (ix2 p q) = Layer.entry x0 x1 (Layer.rowOf x2) p q := by
  unfold k1_pay1
  exact Layer.body_apply dot_S5000x32_S32x16_S5000x16_1_0_0_1_n_n rfl rfl rfl rfl rfl rfl rfl rfl x0 x1 x2 _ _ _ _ p q

/-- The printed index maps over the grid: the operand's and the result's blocks move down the rows with the point, the
    weight's and the bias row's stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand's block at point `t` is rows `5000·t …` of the operand. -/
theorem xblk_apply (c : Dev nD) (t : Fin cfg1.N) (p : Fin 5000) (k : Fin 32) (r : Fin 100000) (hr : r.val = 5000 * t.val + p.val) :
    (iblk1 V c 0 t : Vec Ideal S5000x32 .f32) (ix2 p k) = xs V c (ix2 r k) := by
  obtain ⟨e0, e1, -⟩ := idx_facts t
  unfold iblk1
  rw [View.read_apply]
  show V c main_v48 _ = V c main_v48 _
  refine congrArg (V c main_v48) (funext fun a => Fin.ext ?_)
  match a with
  | ⟨0, _⟩ => show win1_0.index t 0 * 5000 + 1 * p.val = r.val; rw [e0, hr]; omega
  | ⟨1, _⟩ => show win1_0.index t 1 * 32 + 1 * k.val = k.val; rw [e1]; omega

/-- The weight's block at every point is the whole weight. -/
theorem wblk_eq (c : Dev nD) (t : Fin cfg1.N) : (iblk1 V c 1 t : Vec Ideal S32x16 .f32) = ws V c := by
  obtain ⟨-, -, e0, e1, -⟩ := idx_facts t
  funext j
  unfold iblk1
  rw [View.read_apply]
  show V c main_arg5 _ = V c main_arg5 _
  refine congrArg (V c main_arg5) (funext fun a => Fin.ext ?_)
  match a with
  | ⟨0, _⟩ => show win1_1.index t 0 * 32 + 1 * (j 0).val = (j 0).val; rw [e0]; omega
  | ⟨1, _⟩ => show win1_1.index t 1 * 16 + 1 * (j 1).val = (j 1).val; rw [e1]; omega

/-- The bias row's block at every point is the whole row. -/
theorem bblk_eq (c : Dev nD) (t : Fin cfg1.N) : (iblk1 V c 2 t : Vec Ideal S1x16 .f32) = bs V c := by
  obtain ⟨-, -, -, -, e0, e1, -⟩ := idx_facts t
  funext j
  unfold iblk1
  rw [View.read_apply]
  show V c main_v49 _ = V c main_v49 _
  refine congrArg (V c main_v49) (funext fun a => Fin.ext ?_)
  match a with
  | ⟨0, _⟩ => show win1_2.index t 0 * 1 + 1 * (j 0).val = (j 0).val; rw [e0]; omega
  | ⟨1, _⟩ => show win1_2.index t 1 * 16 + 1 * (j 1).val = (j 1).val; rw [e1]; omega

/-- WHAT POINT `t` WRITES BACK is block `t` of the layer of the whole operand. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x32) hz, View.ld_unit_zero (S := S32x16) hz, View.ld_unit_zero (S := S1x16) hz]
  rw [wblk_eq, bblk_eq]
  funext j
  obtain ⟨p, q, rfl⟩ : ∃ (p : Fin 5000) (q : Fin 16), j = ix2 p q := ⟨j 0, j 1, eq_ix2 j⟩
  obtain ⟨-, -, -, -, -, -, e0, e1⟩ := idx_facts t
  have hp := p.isLt
  have hq := q.isLt
  have ht : t.val < 20 := t.isLt
  rw [View.read_apply]
  have hemb : ((cfg1.win 3).blk t).view.emb (ix2 p q) = ix2 (⟨5000 * t.val + p.val, by omega⟩ : Fin 100000) q := by
    funext a
    apply Fin.ext
    match a with
    | ⟨0, _⟩ => show win1_3.index t 0 * 5000 + 1 * p.val = 5000 * t.val + p.val; rw [e0]; omega
    | ⟨1, _⟩ => show win1_3.index t 1 * 16 + 1 * q.val = q.val; rw [e1]; omega
  show k1_pay1 (iblk1 V c 0 t) (ws V c) (bs V c) (ix2 p q) = result V c (((cfg1.win 3).blk t).view.emb (ix2 p q))
  rw [hemb]
  refine (pay_apply (iblk1 V c 0 t) (ws V c) (bs V c) p q).trans ?_
  exact Layer.entry_congr_row _ _ _ _ p _ q fun k => xblk_apply V c t p k _ rfl

/-- An index of the result array is in point `t`'s block iff each coordinate is in the block's range on its axis. -/
theorem mem_blk (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v50).slice (win1_3.rect t)).set ↔ _
  rw [View.set_slice_whole, Rect.mem_set_unit]
  exact Iff.rfl

/-- Every index of the result array lies in the block of the point its row selects: row `r` in block `r / 5000`. -/
theorem cover (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := rfl
  have hlt : (i 0).val / 5000 < cfg1.N := by rw [hN]; omega
  obtain ⟨-, -, -, -, -, -, e0, e1⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ 0 * 5000 ≤ (i 0).val ∧ (i 0).val < win1_3.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_3.index ⟨(i 0).val / 5000, hlt⟩ 1 * 16 ≤ (i 1).val ∧ (i 1).val < win1_3.index ⟨(i 0).val / 5000, hlt⟩ 1 * 16 + 16
    rw [e1]
    omega

/-- THE ARRAY THE REGION LEAVES: the layer of the operand, the weight and the bias row as the region found them. -/
theorem final (c : Dev nD) : (dat1 V c).arrAt 3 cfg1.N = result V c :=
  (dat1 V c).arrAt_eq_of_cover 3 (result V c) (fun t _ => flushed_eq V c t) cover

end Cert.KernelIdeal.Region1

end
-- ==== Proof.Graph.lean ====
/-
  The graph convolution's sparse half, which both programs run on the host with the same operations, named once so
  that no proof has to open it.

  With `E` = 1,600,000 edges `(src e, dst e)` over `n` = 100,000 nodes and 32 features per node:

    * `norm ends` — per node, `max (number of edges with that node at the given end) 1` raised to the power `-1/2`;
    * `aggregate x ns nd src dst` — scale row `v` of `x` by `ns v`, send each edge's source row along the edge and add up
      what arrives at each node, then scale row `v` of the sums by `nd v` (a negative source index counted from the end,
      as the programs spell it);
    * `net` — the two layers: aggregate, dense layer with positive part, aggregate, dense layer with positive part.

  The operations' dimension records and shape relations are a program's own; they come in as one bundle `Dims`, and two
  bundles over the same shapes whose records have the same lists are equal.
-/
import Idealize.ShloMosaic.PureOps.Ideal
import proofs.«172774_j47244640256453_1_alg».proof.Proof.Layer

noncomputable section

namespace Cert.Graph

open Idealize.ShloMosaic

abbrev S0 : Shape := ⟨0, ![]⟩
abbrev SE : Shape := ⟨1, ![1600000]⟩
abbrev SE1 : Shape := ⟨2, ![1600000, 1]⟩
abbrev SN : Shape := ⟨1, ![100000]⟩
abbrev SN1 : Shape := ⟨2, ![100000, 1]⟩
abbrev SNF : Shape := ⟨2, ![100000, 32]⟩
abbrev SEF : Shape := ⟨2, ![1600000, 32]⟩

/-- What the host operations of the sparse half take beside their operands: the shape relations of the stretchings and
    the dimension records of the counting scatter, the row gather and the row scatter. -/
structure Dims : Type where
  b0E : S0.BroadcastsInDim SE (![] : Fin 0 → Fin SE.rank)
  b0N : S0.BroadcastsInDim SN (![] : Fin 0 → Fin SN.rank)
  bE1 : SE.BroadcastsInDim SE1 (![0] : Fin 1 → Fin SE1.rank)
  bN1 : SN.BroadcastsInDim SN1 (![0] : Fin 1 → Fin SN1.rank)
  bNF : SN1.BroadcastsInDim SNF (![0, 1] : Fin 2 → Fin SNF.rank)
  b0NF : S0.BroadcastsInDim SNF (![] : Fin 0 → Fin SNF.rank)
  cnt : ScatterDims SN SE1 SE
  gat : GatherDims SNF SE1 SEF
  sct : ScatterDims SNF SE1 SEF

variable (D : Dims)

/-- Per node: the number of edges with that node at the end `ends` names, at least one, to the power `-1/2`. -/
def norm (ends : IVec SE 32) : FVec Ideal SN .f32 :=
  Host.powf
    (maximumf
      (Host.scatterAdd D.cnt (broadcastInDim SN ![] D.b0N (constant S0 .f32 0x00000000#32)) (broadcastInDim SE1 ![0] D.bE1 ends)
        (broadcastInDim SE ![] D.b0E (constant S0 .f32 0x3F800000#32)))
      (broadcastInDim SN ![] D.b0N (constant S0 .f32 0x3F800000#32)))
    (broadcastInDim SN ![] D.b0N (constant S0 .f32 0xBF000000#32))

/-- Rows scaled by `ns`, sent along the edges and summed at their targets, the sums' rows scaled by `nd`. -/
def aggregate (x : FVec Ideal SNF .f32) (ns nd : FVec Ideal SN .f32) (src dst : IVec SE 32) : FVec Ideal SNF .f32 :=
  mulf
    (Host.scatterAdd D.sct (broadcastInDim SNF ![] D.b0NF (constant S0 .f32 0x00000000#32)) (broadcastInDim SE1 ![0] D.bE1 dst)
      (Host.gather D.gat (mulf x (broadcastInDim SNF ![0, 1] D.bNF (broadcastInDim SN1 ![0] D.bN1 ns)))
        (broadcastInDim SE1 ![0] D.bE1
          (select (cmpi .slt src (broadcastInDim SE ![] D.b0E (constantI S0 32 0#32)))
            (addi src (broadcastInDim SE ![] D.b0E (constantI S0 32 100000#32))) src))))
    (broadcastInDim SNF ![0, 1] D.bNF (broadcastInDim SN1 ![0] D.bN1 nd))

/-- The whole network on the extended reals: two rounds of aggregation and dense layer. -/
def net (x : FVec Ideal SNF .f32) (src dst : IVec SE 32) (w1 : FVec Ideal ⟨2, ![32, 32]⟩ .f32) (b1 : FVec Ideal ⟨1, ![32]⟩ .f32)
    (w2 : FVec Ideal ⟨2, ![32, 16]⟩ .f32) (b2 : FVec Ideal ⟨1, ![16]⟩ .f32) : FVec Ideal ⟨2, ![100000, 16]⟩ .f32 :=
  Layer.dense
    (aggregate D (Layer.dense (aggregate D x (norm D src) (norm D dst) src dst) w1 b1) (norm D src) (norm D dst) src dst)
    w2 b2

end Cert.Graph

end
-- ==== Proof.KernelValue.lean ====
/-
  What the kernel's program leaves in its result array, as ONE function of the argument arrays: the two-layer network
  `Graph.net`.

  @main is four stretches. Host operations compute the two degree normalisations and aggregate the input features;
  kernel region 0 applies the first dense layer with its positive part (what a region leaves is the layer of what it
  finds: `Region0.final`); host operations aggregate that; kernel region 1 applies the second layer. The buffer
  contents at each boundary are the fold the frame is stated over (`W1 … W4`); read here at the few buffers the value
  passes through.
-/
import proofs.«172774_j47244640256453_1_alg».proof.Proof.KernelIdealRun
import proofs.«172774_j47244640256453_1_alg».proof.Proof.Region0
import proofs.«172774_j47244640256453_1_alg».proof.Proof.Region1
import proofs.«172774_j47244640256453_1_alg».proof.Proof.Graph
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The shape relations and dimension records of this program's sparse half. -/
def dims : Graph.Dims where
  b0E := Facts₀.bcast_S_S1600000
  b0N := Facts₀.bcast_S_S100000
  bE1 := Facts₀.bcast_S1600000_S1600000x1_0
  bN1 := Facts₀.bcast_S100000_S100000x1_0
  bNF := Facts₀.bcast_S100000x1_S100000x32_0_1
  b0NF := Facts₀.bcast_S_S100000x32
  cnt := scatter_S100000_S1600000x1_S1600000_n_0_0_1
  gat := gather_S100000x32_S1600000x1_S1600000x32_1_0_n_n_0_1_132
  sct := scatter_S100000x32_S1600000x1_S1600000x32_1_0_0_1

/-- The argument arrays as launched, at their literal types. -/
abbrev feats (c : Dev nD) : FVec Ideal S100000x32 .f32 := m ((c : Thread nD τ).loc main_arg0)
abbrev src (c : Dev nD) : IVec S1600000 32 := m ((c : Thread nD τ).loc main_arg1)
abbrev dst (c : Dev nD) : IVec S1600000 32 := m ((c : Thread nD τ).loc main_arg2)
abbrev w1 (c : Dev nD) : FVec Ideal S32x32 .f32 := m ((c : Thread nD τ).loc main_arg3)
abbrev b1 (c : Dev nD) : FVec Ideal S32 .f32 := m ((c : Thread nD τ).loc main_arg4)
abbrev w2 (c : Dev nD) : FVec Ideal S32x16 .f32 := m ((c : Thread nD τ).loc main_arg5)
abbrev b2 (c : Dev nD) : FVec Ideal S16 .f32 := m ((c : Thread nD τ).loc main_arg6)

/-! ## The first host stretch, read from the launch contents -/

theorem V1_v10 (c : Dev nD) : (V1 m ρ c main_v10 : FVec Ideal S100000 .f32) = Graph.norm dims (src m c) := by
  show StableHlo.after hostOps0 (W0 m ρ c) (Proc.devRef .tc main_v10) = _
  after_results_simp
  rfl

theorem V1_v14 (c : Dev nD) : (V1 m ρ c main_v14 : FVec Ideal S100000 .f32) = Graph.norm dims (dst m c) := by
  show StableHlo.after hostOps0 (W0 m ρ c) (Proc.devRef .tc main_v14) = _
  after_results_simp
  rfl

theorem V1_arg1 (c : Dev nD) : (V1 m ρ c main_arg1 : IVec S1600000 32) = src m c := by
  show StableHlo.after hostOps0 (W0 m ρ c) (Proc.devRef .tc main_arg1) = _
  after_results_simp

theorem V1_arg2 (c : Dev nD) : (V1 m ρ c main_arg2 : IVec S1600000 32) = dst m c := by
  show StableHlo.after hostOps0 (W0 m ρ c) (Proc.devRef .tc main_arg2) = _
  after_results_simp

theorem V1_arg3 (c : Dev nD) : (V1 m ρ c main_arg3 : FVec Ideal S32x32 .f32) = w1 m c := by
  show StableHlo.after hostOps0 (W0 m ρ c) (Proc.devRef .tc main_arg3) = _
  after_results_simp

theorem V1_arg5 (c : Dev nD) : (V1 m ρ c main_arg5 : FVec Ideal S32x16 .f32) = w2 m c := by
  show StableHlo.after hostOps0 (W0 m ρ c) (Proc.devRef .tc main_arg5) = _
  after_results_simp

theorem V1_arg6 (c : Dev nD) : (V1 m ρ c main_arg6 : FVec Ideal S16 .f32) = b2 m c := by
  show StableHlo.after hostOps0 (W0 m ρ c) (Proc.devRef .tc main_arg6) = _
  after_results_simp

/-- The first bias, as the `[1, 32]` row region 0 reads. -/
theorem V1_v31 (c : Dev nD) : (V1 m ρ c main_v31 : FVec Ideal S1x32 .f32) = shapeCast S1x32 (b1 m c) Facts₀.shapeCasts_S32_S1x32 := by
  show StableHlo.after hostOps0 (W0 m ρ c) (Proc.devRef .tc main_v31) = _
  after_results_simp
  rfl

/-- The aggregated input features region 0 reads. -/
theorem V1_v30 (c : Dev nD) : (V1 m ρ c main_v30 : FVec Ideal S100000x32 .f32)
    = Graph.aggregate dims (feats m c) (Graph.norm dims (src m c)) (Graph.norm dims (dst m c)) (src m c) (dst m c) := by
  show StableHlo.after hostOps0 (W0 m ρ c) (Proc.devRef .tc main_v30) = _
  after_results_simp
  rfl

/-! ## Region 0 -/

/-- The first layer's output, where region 0 leaves it. -/
abbrev hidden (c : Dev nD) : FVec Ideal S100000x32 .f32 :=
  Layer.dense (Graph.aggregate dims (feats m c) (Graph.norm dims (src m c)) (Graph.norm dims (dst m c)) (src m c) (dst m c)) (w1 m c) (b1 m c)

theorem V2_v32 (c : Dev nD) : (V2 m ρ c main_v32 : FVec Ideal S100000x32 .f32) = hidden m c := by
  refine (W2_arr m ρ c 3).trans ((Region0.final (V1 m ρ) c).trans ?_)
  unfold Region0.result Region0.xs Region0.ws Region0.bs
  rw [V1_v30, V1_arg3, V1_v31, Layer.rowOf_reshape]

/-- A buffer region 0 does not write keeps its entry contents. -/
theorem V2_v10 (c : Dev nD) : (V2 m ρ c main_v10 : FVec Ideal S100000 .f32) = Graph.norm dims (src m c) :=
  (W2_of_ne m ρ c main_v10 (by decide)).trans (V1_v10 m ρ c)
theorem V2_v14 (c : Dev nD) : (V2 m ρ c main_v14 : FVec Ideal S100000 .f32) = Graph.norm dims (dst m c) :=
  (W2_of_ne m ρ c main_v14 (by decide)).trans (V1_v14 m ρ c)
theorem V2_arg1 (c : Dev nD) : (V2 m ρ c main_arg1 : IVec S1600000 32) = src m c :=
  (W2_of_ne m ρ c main_arg1 (by decide)).trans (V1_arg1 m ρ c)
theorem V2_arg2 (c : Dev nD) : (V2 m ρ c main_arg2 : IVec S1600000 32) = dst m c :=
  (W2_of_ne m ρ c main_arg2 (by decide)).trans (V1_arg2 m ρ c)
theorem V2_arg5 (c : Dev nD) : (V2 m ρ c main_arg5 : FVec Ideal S32x16 .f32) = w2 m c :=
  (W2_of_ne m ρ c main_arg5 (by decide)).trans (V1_arg5 m ρ c)
theorem V2_arg6 (c : Dev nD) : (V2 m ρ c main_arg6 : FVec Ideal S16 .f32) = b2 m c :=
  (W2_of_ne m ρ c main_arg6 (by decide)).trans (V1_arg6 m ρ c)

/-! ## The second host stretch, read from region 0's exit contents -/

theorem V3_v48 (c : Dev nD) : (V3 m ρ c main_v48 : FVec Ideal S100000x32 .f32)
    = Graph.aggregate dims (hidden m c) (Graph.norm dims (src m c)) (Graph.norm dims (dst m c)) (src m c) (dst m c) := by
  rw [← V2_v32 m ρ c, ← V2_v10 m ρ c, ← V2_v14 m ρ c, ← V2_arg1 m ρ c, ← V2_arg2 m ρ c]
  show StableHlo.after hostOps1 (W2 m ρ c) (Proc.devRef .tc main_v48) = _
  after_results_simp
  rfl

theorem V3_arg5 (c : Dev nD) : (V3 m ρ c main_arg5 : FVec Ideal S32x16 .f32) = w2 m c := by
  rw [← V2_arg5 m ρ c]
  show StableHlo.after hostOps1 (W2 m ρ c) (Proc.devRef .tc main_arg5) = _
  after_results_simp

theorem V3_v49 (c : Dev nD) : (V3 m ρ c main_v49 : FVec Ideal S1x16 .f32) = shapeCast S1x16 (b2 m c) Facts₀.shapeCasts_S16_S1x16 := by
  rw [← V2_arg6 m ρ c]
  show StableHlo.after hostOps1 (W2 m ρ c) (Proc.devRef .tc main_v49) = _
  after_results_simp
  rfl

/-! ## Region 1, and the run -/

/-- THE RESULT ARRAY at the last boundary is the network of the argument arrays. -/
theorem result_eq (c : Dev nD) : (W4 m ρ c (Proc.devRef .tc main_v50) : FVec Ideal S100000x16 .f32)
    = Graph.net dims (feats m c) (src m c) (dst m c) (w1 m c) (b1 m c) (w2 m c) (b2 m c) := by
  refine (W4_arr m ρ c 3).trans ((Region1.final (V3 m ρ) c).trans ?_)
  unfold Region1.result Region1.xs Region1.ws Region1.bs
  rw [V3_v48, V3_arg5, V3_v49, Layer.rowOf_reshape]
  rfl

/-- Every weakly fair execution of the kernel's program terminates with the result array at the network of the
    arguments, and the arguments unchanged. -/
theorem run : θ_run defs (onTc (τ := τ) (main (F := Ideal))) ⟨m, fun _ => 0, ρ⟩ (fun r => ∀ c : Dev nD,
      r.2.mem ((c.tc : Thread nD τ).loc main_v50) = Graph.net dims (feats m c) (src m c) (dst m c) (w1 m c) (b1 m c) (w2 m c) (b2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (run_main m ρ)

end Cert.KernelIdeal.Whole

end
-- ==== Proof.RefValue.lean ====
/-
  The reference's result, as the same function of the argument arrays: the two-layer network `Graph.net`.

  The reference is host operations only, and its run hands back one composed term of the arguments. That term IS the
  network with each dense layer spelt as the reference spells it — the product of the aggregated features with the weight,
  plus the bias laid as a row and stretched down the rows, then the larger of that and the zero array —, which is the
  layer's array (`Layer.ref_eq`), once per layer; the sparse half is the named chain, never opened.
-/
import proofs.«172774_j47244640256453_1_alg».proof.Proof.Gen.ReferenceIdeal.Run
import proofs.«172774_j47244640256453_1_alg».proof.Proof.Graph

set_option maxRecDepth 16384

noncomputable section

namespace Cert.ReferenceIdeal.RefValue

open Cert.ReferenceIdeal
open Idealize.ShloMosaic Idealize.ShloMosaic.TcCoe Idealize.SL.Sem

variable (m : (ℓ : Loc nD τ sig) → Buf (Elt Ideal) ℓ)

/-- The shape relations and dimension records of the reference's sparse half. -/
def dims : Graph.Dims where
  b0E := Facts₀.bcast_S_S1600000
  b0N := Facts₀.bcast_S_S100000
  bE1 := Facts₀.bcast_S1600000_S1600000x1_0
  bN1 := Facts₀.bcast_S100000_S100000x1_0
  bNF := Facts₀.bcast_S100000x1_S100000x32_0_1
  b0NF := Facts₀.bcast_S_S100000x32
  cnt := scatter_S100000_S1600000x1_S1600000_n_0_0_1
  gat := gather_S100000x32_S1600000x1_S1600000x32_1_0_n_n_0_1_132
  sct := scatter_S100000x32_S1600000x1_S1600000x32_1_0_0_1

/-- The argument arrays as launched, at their literal types. -/
abbrev feats (c : Dev nD) : FVec Ideal S100000x32 .f32 := m ((c.tc : Thread nD τ).loc main_arg0)
abbrev src (c : Dev nD) : IVec S1600000 32 := m ((c.tc : Thread nD τ).loc main_arg1)
abbrev dst (c : Dev nD) : IVec S1600000 32 := m ((c.tc : Thread nD τ).loc main_arg2)
abbrev w1 (c : Dev nD) : FVec Ideal S32x32 .f32 := m ((c.tc : Thread nD τ).loc main_arg3)
abbrev b1 (c : Dev nD) : FVec Ideal S32 .f32 := m ((c.tc : Thread nD τ).loc main_arg4)
abbrev w2 (c : Dev nD) : FVec Ideal S32x16 .f32 := m ((c.tc : Thread nD τ).loc main_arg5)
abbrev b2 (c : Dev nD) : FVec Ideal S16 .f32 := m ((c.tc : Thread nD τ).loc main_arg6)

/-- The run's composed term is the network of the argument arrays. -/
theorem result_eq (c : Dev nD) : (Value.res_out0 m c : FVec Ideal S100000x16 .f32)
    = Graph.net dims (feats m c) (src m c) (dst m c) (w1 m c) (b1 m c) (w2 m c) (b2 m c) := by
  have e1 := Layer.ref_eq dot_S100000x32_S32x32_S100000x32_1_0_0_1_n_n rfl rfl rfl rfl rfl rfl rfl rfl
    (Graph.aggregate dims (feats m c) (Graph.norm dims (src m c)) (Graph.norm dims (dst m c)) (src m c) (dst m c)) (w1 m c) (b1 m c)
    Facts₀.bcast_S32_S1x32_1 Facts₀.bcast_S1x32_S100000x32_0_1 Facts₀.bcast_S_S100000x32
  have e2 := Layer.ref_eq dot_S100000x32_S32x16_S100000x16_1_0_0_1_n_n rfl rfl rfl rfl rfl rfl rfl rfl
    (Graph.aggregate dims
      (Layer.dense (Graph.aggregate dims (feats m c) (Graph.norm dims (src m c)) (Graph.norm dims (dst m c)) (src m c) (dst m c)) (w1 m c) (b1 m c))
      (Graph.norm dims (src m c)) (Graph.norm dims (dst m c)) (src m c) (dst m c)) (w2 m c) (b2 m c)
    Facts₀.bcast_S16_S1x16_1 Facts₀.bcast_S1x16_S100000x16_0_1 Facts₀.bcast_S_S100000x16
  unfold Graph.net
  rw [← e2, ← e1]
  rfl

end Cert.ReferenceIdeal.RefValue

end
-- ==== Proof.lean ====
/-
  A two-layer graph convolution on 100,000 nodes and 1,600,000 edges: the kernel's program against the plain jnp
  reference, equal on the extended reals.

  Both programs compute the degree normalisations, scale and send the features along the edges and sum them at the
  targets with the SAME host operations; they differ only in how each dense layer `max (agg · W + b) 0` is computed. The
  kernel runs it as a pallas_call over 20 blocks of 5,000 rows, rounding to bf16 on the way into the product, which
  changes nothing on the extended reals, and accumulating onto a zero block; the reference runs one whole matrix product,
  adds the bias and takes the positive part. Entry `(p, q)` is `max (∑ k, agg (p, k) · W (k, q) + b q) 0` on both
  sides — the same sum over the same 32 terms, so no entry has to be finite and the precondition is never opened.

  The kernel's result array is read off the run of its four stretches (host operations, region, host operations,
  region) as the network `Graph.net` of the arguments; the reference's run hands back a composed term that is the same
  network; the two bundles of dimension records, one per program, hold the same lists.

  The three frames: the two kernel programs' are the generated frame certificates, the reference's is its run with the
  result dropped. The idealization rewrote nothing, so `preserves` asks nothing.
-/
import proofs.«172774_j47244640256453_1_alg».proof.Defs
import proofs.«172774_j47244640256453_1_alg».proof.Proof.Gen.Kernel
import proofs.«172774_j47244640256453_1_alg».proof.Proof.Gen.Kernel.Frame
import proofs.«172774_j47244640256453_1_alg».proof.Proof.Gen.KernelIdeal
import proofs.«172774_j47244640256453_1_alg».proof.Proof.Gen.KernelIdeal.Frame
import proofs.«172774_j47244640256453_1_alg».proof.Proof.Gen.ReferenceIdeal
import proofs.«172774_j47244640256453_1_alg».proof.Proof.Gen.ReferenceIdeal.Run
import proofs.«172774_j47244640256453_1_alg».proof.Proof.Gen.Pre_finite_inputs
import proofs.«172774_j47244640256453_1_alg».proof.Proof.KernelValue
import proofs.«172774_j47244640256453_1_alg».proof.Proof.RefValue
import Idealize.ShloMosaic.Adequacy
import Idealize.ShloMosaic.Init

noncomputable section

namespace Cert.Proof

open Idealize.ShloMosaic Idealize.SL.Sem

/-- The two programs' dimension records for the sparse half hold the same lists over the same shapes. -/
theorem dims_eq : Cert.ReferenceIdeal.RefValue.dims = Cert.KernelIdeal.Whole.dims := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments in their result
    arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.RefValue.result_eq m' c).trans ?_
  unfold Cert.ReferenceIdeal.RefValue.feats Cert.ReferenceIdeal.RefValue.src Cert.ReferenceIdeal.RefValue.dst
    Cert.ReferenceIdeal.RefValue.w1 Cert.ReferenceIdeal.RefValue.b1 Cert.ReferenceIdeal.RefValue.w2 Cert.ReferenceIdeal.RefValue.b2
  rw [h0, h1, h2, h3, h4, h5, h6, dims_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
